-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x64 : Shape := ⟨2, ![10000, 64]⟩
abbrev S10000x128 : Shape := ⟨2, ![10000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The specification: a two-layer graph convolution over a fixed edge list, as ONE function of the six argument arrays.

  The edge list `e : i32[2, 1600000]` gives sources (row 0) and destinations (row 1); every node gets a self loop, so
  both lists are extended by `0, 1, …, 99999` to length 1700000. A node's degree counts the extended destination list;
  its weight is `deg^(-1/2)` where the degree is positive (the degree is first raised to at least one, so the inverse
  square root is taken of a positive number) and zero otherwise; an edge's coefficient is the product of the weights of
  its two ends. One layer maps node features `x` to `A (x · W) + b`, where `A h` gathers row `src` of `h` for every
  edge, scales it by the edge's coefficient and adds it into row `dst`; the network is
  `A (relu (A (x · W1) + b1) · W2) + b2`. A negative index is first wrapped by the node count, as the array indexing
  does. Everything here is stated over any float family: the operations are the ones both programs apply, so neither
  side's proof opens them.
-/
import proofs.«114009_j82566451298883_1_alg».proof.Proof.Gen.ReferenceIdeal

noncomputable section

namespace Cert.Spec

open Cert.ReferenceIdeal Cert.ReferenceIdeal.Gen Idealize.ShloMosaic Idealize.ShloMosaic.TcCoe Idealize.SL.Sem

variable {F : FTy → Type} [FloatOps F]

/-- The edge sources followed by the self loops `0 … 99999`. -/
def srcList (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge destinations followed by the self loops `0 … 99999`. -/
def dstList (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node index counts from the end: `i + 100000` where `i < 0`, else `i`; as a column of start indices. -/
def wrapped (i : (⟨S1700000, .i32⟩ : BufTy).Contents (Elt F)) : (⟨S1700000x1, .i32⟩ : BufTy).Contents (Elt F) :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- A node's degree: how often it occurs in the extended destination list (a sum of ones). -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstList e)) (broadcastInDim S1700000 ![] bcast_S_S1700000 (constant S_ .f32 0x3F800000#32))

/-- A node's weight: `max(deg, 1)^(-1/2)` where `deg > 0`, zero elsewhere. -/
def nodeWeight (e : (⟨S2x1600000, .i32⟩ : BufTy).Contents (Elt F)) : (⟨S100000, .f32⟩ : BufTy).Contents (Elt F) :=
  select (cmpf (F := F) .ogt (degree e) (broadcastInDim S100000 ![] bcast_S_S100000 (constant S_ .f32 0x00000000#32))) (Host.rsqrt (maximumf (degree e) (broadcastInDim S100000 ![] bcast_S_S100000 (constant S_ .f32 0x3F800000#32)))) (broadcastInDim S100000 ![] bcast_S_S100000 (id (constant S_ .f32 0x00000000#32)))

/-- An edge's coefficient: the product of the weights of its source and of its destination. -/
def edgeCoeff (e : (⟨S2x1600000, .i32⟩ : BufTy).Contents (Elt F)) : (⟨S1700000, .f32⟩ : BufTy).Contents (Elt F) :=
  mulf (Host.gather gather_S100000_S1700000x1_S1700000_n_0_n_n_0_1_1 (nodeWeight e) (wrapped (srcList e))) (Host.gather gather_S100000_S1700000x1_S1700000_n_0_n_n_0_1_1 (nodeWeight e) (wrapped (dstList e)))

/-- Aggregation over 128 features: row `dst` of the result sums `coeff · h[src]` over the extended edges. -/
def aggregate128 (h : (⟨S100000x128, .f32⟩ : BufTy).Contents (Elt F)) (e : (⟨S2x1600000, .i32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstList e)) (mulf (Host.gather gather_S100000x128_S1700000x1_S1700000x128_1_0_n_n_0_1_1128 h (wrapped (srcList e))) (broadcastInDim S1700000x128 ![0, 1] bcast_S1700000x1_S1700000x128_0_1 (broadcastInDim S1700000x1 ![0] bcast_S1700000_S1700000x1_0 (edgeCoeff e))))

/-- Aggregation over 64 features. -/
def aggregate64 (h : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstList e)) (mulf (Host.gather gather_S100000x64_S1700000x1_S1700000x64_1_0_n_n_0_1_164 h (wrapped (srcList e))) (broadcastInDim S1700000x64 ![0, 1] bcast_S1700000x1_S1700000x64_0_1 (broadcastInDim S1700000x1 ![0] bcast_S1700000_S1700000x1_0 (edgeCoeff e))))

/-- The first layer's product `x · W1`, rows by columns. -/
def product1 (x : (⟨S100000x64, .f32⟩ : BufTy).Contents (Elt F)) (w : (⟨S64x128, .f32⟩ : BufTy).Contents (Elt F)) : (⟨S100000x128, .f32⟩ : BufTy).Contents (Elt F) :=
  Host.dotGeneral dot_S100000x64_S64x128_S100000x128_1_0_0_1_n_n none x w

/-- The second layer's product `h · W2`. -/
def product2 (h : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none h w

/-- Bias over 128 features, then the positive part: `max(a + b, 0)`, the bias a row repeated down the nodes. -/
def biasRelu (a : (⟨S100000x128, .f32⟩ : BufTy).Contents (Elt F)) (b : (⟨S1x128, .f32⟩ : BufTy).Contents (Elt F)) : (⟨S100000x128, .f32⟩ : BufTy).Contents (Elt F) :=
  maximumf (addf a (broadcastInDim S100000x128 ![0, 1] bcast_S1x128_S100000x128_0_1 b)) (broadcastInDim S100000x128 ![] bcast_S_S100000x128 (constant S_ .f32 0x00000000#32))

/-- Bias over 64 features: `a + b`, the bias a row repeated down the nodes. -/
def bias (a : (⟨S100000x64, .f32⟩ : BufTy).Contents (Elt F)) (b : (⟨S1x64, .f32⟩ : BufTy).Contents (Elt F)) : (⟨S100000x64, .f32⟩ : BufTy).Contents (Elt F) :=
  addf a (broadcastInDim S100000x64 ![0, 1] bcast_S1x64_S100000x64_0_1 b)

/-- The hidden layer: `relu (A (x · W1) + b1)`. -/
def hidden (x : (⟨S100000x64, .f32⟩ : BufTy).Contents (Elt F)) (e : (⟨S2x1600000, .i32⟩ : BufTy).Contents (Elt F)) (w1 : (⟨S64x128, .f32⟩ : BufTy).Contents (Elt F)) (b1 : (⟨S128, .f32⟩ : BufTy).Contents (Elt F)) : (⟨S100000x128, .f32⟩ : BufTy).Contents (Elt F) :=
  biasRelu (aggregate128 (product1 x w1) e) (broadcastInDim S1x128 ![1] bcast_S128_S1x128_1 b1)

/-- The network: `A (hidden · W2) + b2`. -/
def network (x : (⟨S100000x64, .f32⟩ : BufTy).Contents (Elt F)) (e : (⟨S2x1600000, .i32⟩ : BufTy).Contents (Elt F)) (w1 : (⟨S64x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F)) : (⟨S100000x64, .f32⟩ : BufTy).Contents (Elt F) :=
  bias (aggregate64 (product2 (hidden x e w1 b1) w2) e) (broadcastInDim S1x64 ![1] bcast_S64_S1x64_1 b2)

end Cert.Spec

end
-- ==== Proof.RefValue.lean ====
/-
  The reference computes the specification: the term its run ends at is the network of its six argument arrays, operation
  for operation (the reference recomputes the extended edge lists and the edge coefficients for its second layer; they
  are the same terms).
-/
import proofs.«114009_j82566451298883_1_alg».proof.Proof.RefRun
import proofs.«114009_j82566451298883_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The reference's result term is the network of the launch contents of its arguments. -/
theorem result_eq (m : (ℓ : Loc nD τ sig) → Buf (Elt F) ℓ) (c : Dev nD) :
    Cert.ReferenceIdeal.ValueP.res_main_v94 m c
      = Cert.Spec.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v94 Cert.Spec.network Cert.Spec.bias Cert.Spec.aggregate64 Cert.Spec.product2
    Cert.Spec.hidden Cert.Spec.biasRelu Cert.Spec.aggregate128 Cert.Spec.product1 Cert.Spec.edgeCoeff Cert.Spec.nodeWeight
    Cert.Spec.degree Cert.Spec.wrapped Cert.Spec.srcList Cert.Spec.dstList
  rfl

end Cert.ReferenceIdeal.RefValue

end
-- ==== Proof.ChainHost.lean ====
/-
  The host side of the kernel's program between its four kernel regions, read at the buffers later items use.

  The program's buffer contents at each segment boundary are a fold from the launch memory: a stretch of host operations
  rewrites the buffers it writes, a kernel region rewrites its output array and leaves every other buffer alone. Read at
  one buffer, the fold is the operations' composed term of what was there before; here each boundary is read at exactly
  the buffers a later region or stretch takes: the two extended edge lists and the edge coefficients (computed once,
  before the first region, and used by both layers), the weight and bias arguments (never written), and each layer's
  aggregated features as the aggregation of the preceding region's output array. Nothing here opens an operation: the
  terms are the specification's, over any float family.
-/
import proofs.«114009_j82566451298883_1_alg».proof.Proof.Gen.KernelIdeal.Frame
import proofs.«114009_j82566451298883_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Two rows: a vector reshaped to one row is the vector broadcast along the row's second axis -/

/-- `b` reshaped to a 1 × 128 row holds `b j` at `(0, j)`, and so does `b` broadcast into the row's axis 1. -/
theorem row128 (b : (⟨S128, .f32⟩ : BufTy).Contents (Elt F)) :
    shapeCast S1x128 b shapeCasts_S128_S1x128
      = broadcastInDim Cert.ReferenceIdeal.S1x128 ![1] Cert.ReferenceIdeal.Gen.bcast_S128_S1x128_1 b := by
  funext i
  have hi0 : (i 0).val < 1 := (i 0).isLt
  have hi1 : (i 1).val < 128 := (i 1).isLt
  let k : S128.Idx := ValueIdx.ix1 (⟨(i 1).val, hi1⟩ : Fin 128)
  rw [shapeCast_apply b shapeCasts_S128_S1x128 i k (by
        rw [Shape.rowMajor_val_one, Shape.rowMajor_val_two]
        show (i 1).val = (i 0).val * 128 + (i 1).val
        omega)]
  exact (broadcastInDim_apply (s := S128) (t := S1x128) ![1] Cert.ReferenceIdeal.Gen.bcast_S128_S1x128_1 b i k (fun a => by
    match a with
    | ⟨0, _⟩ => rfl)).symm

/-- `b` reshaped to a 1 × 64 row holds `b j` at `(0, j)`, and so does `b` broadcast into the row's axis 1. -/
theorem row64 (b : (⟨S64, .f32⟩ : BufTy).Contents (Elt F)) :
    shapeCast S1x64 b shapeCasts_S64_S1x64
      = broadcastInDim Cert.ReferenceIdeal.S1x64 ![1] Cert.ReferenceIdeal.Gen.bcast_S64_S1x64_1 b := by
  funext i
  have hi0 : (i 0).val < 1 := (i 0).isLt
  have hi1 : (i 1).val < 64 := (i 1).isLt
  let k : S64.Idx := ValueIdx.ix1 (⟨(i 1).val, hi1⟩ : Fin 64)
  rw [shapeCast_apply b shapeCasts_S64_S1x64 i k (by
        rw [Shape.rowMajor_val_one, Shape.rowMajor_val_two]
        show (i 1).val = (i 0).val * 64 + (i 1).val
        omega)]
  exact (broadcastInDim_apply (s := S64) (t := S1x64) ![1] Cert.ReferenceIdeal.Gen.bcast_S64_S1x64_1 b i k (fun a => by
    match a with
    | ⟨0, _⟩ => rfl)).symm

/-! ## Before the first region: the edge lists, the edge coefficients, the arguments -/

/-- The extended source list. -/
theorem W3_v5 (c : Dev nD) : W3 m ρ c (Proc.devRef .tc main_v5) = Cert.Spec.srcList (m ((c : Thread nD τ).loc main_arg1)) := by
  show StableHlo.after hostOps0_2 (StableHlo.after hostOps0_1 (StableHlo.after hostOps0 (W0 m ρ c))) (Proc.devRef .tc main_v5) = _
  simp only [hostOps0_2, hostOps0_1, hostOps0]
  after_results
  rfl

/-- The extended destination list. -/
theorem W3_v6 (c : Dev nD) : W3 m ρ c (Proc.devRef .tc main_v6) = Cert.Spec.dstList (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results
  rfl

/-- The edge coefficients: the product of the two ends' weights, the weights from the degrees. -/
theorem W3_v31 (c : Dev nD) : W3 m ρ c (Proc.devRef .tc main_v31) = Cert.Spec.edgeCoeff (m ((c : Thread nD τ).loc main_arg1)) := by
  show StableHlo.after hostOps0_2 (StableHlo.after hostOps0_1 (StableHlo.after hostOps0 (W0 m ρ c))) (Proc.devRef .tc main_v31) = _
  simp only [hostOps0_2, hostOps0_1, hostOps0]
  after_results_simp
  rfl

/-- No operation before the first region writes `main_arg0`. -/
theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  after_results

/-- No operation before the first region writes `main_arg2`. -/
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  after_results

/-- No operation before the first region writes `main_arg3`. -/
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  simp only [hostOps0_2, hostOps0_1, hostOps0]
  after_results

/-- No operation before the first region writes `main_arg4`. -/
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  simp only [hostOps0_2, hostOps0_1, hostOps0]
  after_results

/-- No operation before the first region writes `main_arg5`. -/
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  simp only [hostOps0_2, hostOps0_1, hostOps0]
  after_results

/-! ## After region 0 (the first product): its output array; every other buffer as before -/

/-- Region 0's output array holds what its write-backs leave. -/
theorem W4_v32 (c : Dev nD) : W4 m ρ c (Proc.devRef .tc main_v32) = (dat0 (V3 m ρ) c).arrAt 2 cfg0.N := W4_arr m ρ c 2
theorem W4_v5 (c : Dev nD) : W4 m ρ c (Proc.devRef .tc main_v5) = Cert.Spec.srcList (m ((c : Thread nD τ).loc main_arg1)) :=
  (W4_of_ne m ρ c main_v5 (by decide)).trans (W3_v5 m ρ c)
theorem W4_v6 (c : Dev nD) : W4 m ρ c (Proc.devRef .tc main_v6) = Cert.Spec.dstList (m ((c : Thread nD τ).loc main_arg1)) :=
  (W4_of_ne m ρ c main_v6 (by decide)).trans (W3_v6 m ρ c)
theorem W4_v31 (c : Dev nD) : W4 m ρ c (Proc.devRef .tc main_v31) = Cert.Spec.edgeCoeff (m ((c : Thread nD τ).loc main_arg1)) :=
  (W4_of_ne m ρ c main_v31 (by decide)).trans (W3_v31 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

/-! ## The first layer's aggregation (the stretch between regions 0 and 1) -/

/-- The aggregated features of layer one: the aggregation of region 0's output array over the extended edges. -/
theorem W5_v45 (c : Dev nD) : W5 m ρ c (Proc.devRef .tc main_v45)
    = Cert.Spec.aggregate128 (W4 m ρ c (Proc.devRef .tc main_v32)) (m ((c : Thread nD τ).loc main_arg1)) := by
  show StableHlo.after hostOps1 (W4 m ρ c) (Proc.devRef .tc main_v45) = _
  simp only [hostOps1]
  after_results_simp
  rw [W4_v5, W4_v6, W4_v31]
  rfl

/-- The first bias as a row. -/
theorem W5_v46 (c : Dev nD) : W5 m ρ c (Proc.devRef .tc main_v46)
    = broadcastInDim Cert.ReferenceIdeal.S1x128 ![1] Cert.ReferenceIdeal.Gen.bcast_S128_S1x128_1 (m ((c : Thread nD τ).loc main_arg3)) := by
  show StableHlo.after hostOps1 (W4 m ρ c) (Proc.devRef .tc main_v46) = _
  simp only [hostOps1]
  after_results
  rw [W4_arg3]
  exact row128 _
theorem W5_v5 (c : Dev nD) : W5 m ρ c (Proc.devRef .tc main_v5) = Cert.Spec.srcList (m ((c : Thread nD τ).loc main_arg1)) := by
  show StableHlo.after hostOps1 (W4 m ρ c) (Proc.devRef .tc main_v5) = _
  simp only [hostOps1]
  after_results
  exact W4_v5 m ρ c
theorem W5_v6 (c : Dev nD) : W5 m ρ c (Proc.devRef .tc main_v6) = Cert.Spec.dstList (m ((c : Thread nD τ).loc main_arg1)) := by
  show StableHlo.after hostOps1 (W4 m ρ c) (Proc.devRef .tc main_v6) = _
  simp only [hostOps1]
  after_results
  exact W4_v6 m ρ c
theorem W5_v31 (c : Dev nD) : W5 m ρ c (Proc.devRef .tc main_v31) = Cert.Spec.edgeCoeff (m ((c : Thread nD τ).loc main_arg1)) := by
  show StableHlo.after hostOps1 (W4 m ρ c) (Proc.devRef .tc main_v31) = _
  simp only [hostOps1]
  after_results
  exact W4_v31 m ρ c
theorem W5_arg4 (c : Dev nD) : W5 m ρ c (Proc.devRef .tc main_arg4) = (m ((c : Thread nD τ).loc main_arg4)) := by
  show StableHlo.after hostOps1 (W4 m ρ c) (Proc.devRef .tc main_arg4) = _
  simp only [hostOps1]
  after_results
  exact W4_arg4 m ρ c
theorem W5_arg5 (c : Dev nD) : W5 m ρ c (Proc.devRef .tc main_arg5) = (m ((c : Thread nD τ).loc main_arg5)) := by
  show StableHlo.after hostOps1 (W4 m ρ c) (Proc.devRef .tc main_arg5) = _
  simp only [hostOps1]
  after_results
  exact W4_arg5 m ρ c

/-! ## After region 1 (bias and positive part) and region 2 (the second product) -/

/-- Region 1's output array holds what its write-backs leave. -/
theorem W6_v47 (c : Dev nD) : W6 m ρ c (Proc.devRef .tc main_v47) = (dat1 (V5 m ρ) c).arrAt 2 cfg1.N := W6_arr m ρ c 2
theorem W6_v5 (c : Dev nD) : W6 m ρ c (Proc.devRef .tc main_v5) = Cert.Spec.srcList (m ((c : Thread nD τ).loc main_arg1)) :=
  (W6_of_ne m ρ c main_v5 (by decide)).trans (W5_v5 m ρ c)
theorem W6_v6 (c : Dev nD) : W6 m ρ c (Proc.devRef .tc main_v6) = Cert.Spec.dstList (m ((c : Thread nD τ).loc main_arg1)) :=
  (W6_of_ne m ρ c main_v6 (by decide)).trans (W5_v6 m ρ c)
theorem W6_v31 (c : Dev nD) : W6 m ρ c (Proc.devRef .tc main_v31) = Cert.Spec.edgeCoeff (m ((c : Thread nD τ).loc main_arg1)) :=
  (W6_of_ne m ρ c main_v31 (by decide)).trans (W5_v31 m ρ c)
theorem W6_arg4 (c : Dev nD) : W6 m ρ c (Proc.devRef .tc main_arg4) = (m ((c : Thread nD τ).loc main_arg4)) :=
  (W6_of_ne m ρ c main_arg4 (by decide)).trans (W5_arg4 m ρ c)
theorem W6_arg5 (c : Dev nD) : W6 m ρ c (Proc.devRef .tc main_arg5) = (m ((c : Thread nD τ).loc main_arg5)) :=
  (W6_of_ne m ρ c main_arg5 (by decide)).trans (W5_arg5 m ρ c)

/-- Region 2's output array holds what its write-backs leave. -/
theorem W7_v48 (c : Dev nD) : W7 m ρ c (Proc.devRef .tc main_v48) = (dat2 (V6 m ρ) c).arrAt 2 cfg2.N := W7_arr m ρ c 2
theorem W7_v5 (c : Dev nD) : W7 m ρ c (Proc.devRef .tc main_v5) = Cert.Spec.srcList (m ((c : Thread nD τ).loc main_arg1)) :=
  (W7_of_ne m ρ c main_v5 (by decide)).trans (W6_v5 m ρ c)
theorem W7_v6 (c : Dev nD) : W7 m ρ c (Proc.devRef .tc main_v6) = Cert.Spec.dstList (m ((c : Thread nD τ).loc main_arg1)) :=
  (W7_of_ne m ρ c main_v6 (by decide)).trans (W6_v6 m ρ c)
theorem W7_v31 (c : Dev nD) : W7 m ρ c (Proc.devRef .tc main_v31) = Cert.Spec.edgeCoeff (m ((c : Thread nD τ).loc main_arg1)) :=
  (W7_of_ne m ρ c main_v31 (by decide)).trans (W6_v31 m ρ c)
theorem W7_arg5 (c : Dev nD) : W7 m ρ c (Proc.devRef .tc main_arg5) = (m ((c : Thread nD τ).loc main_arg5)) :=
  (W7_of_ne m ρ c main_arg5 (by decide)).trans (W6_arg5 m ρ c)

/-! ## The second layer's aggregation (the stretch between regions 2 and 3), and the last region -/

/-- The aggregated features of layer two: the aggregation of region 2's output array over the extended edges. -/
theorem W8_v61 (c : Dev nD) : W8 m ρ c (Proc.devRef .tc main_v61)
    = Cert.Spec.aggregate64 (W7 m ρ c (Proc.devRef .tc main_v48)) (m ((c : Thread nD τ).loc main_arg1)) := by
  show StableHlo.after hostOps3 (W7 m ρ c) (Proc.devRef .tc main_v61) = _
  simp only [hostOps3]
  after_results_simp
  rw [W7_v5, W7_v6, W7_v31]
  rfl

/-- The second bias as a row. -/
theorem W8_v62 (c : Dev nD) : W8 m ρ c (Proc.devRef .tc main_v62)
    = broadcastInDim Cert.ReferenceIdeal.S1x64 ![1] Cert.ReferenceIdeal.Gen.bcast_S64_S1x64_1 (m ((c : Thread nD τ).loc main_arg5)) := by
  show StableHlo.after hostOps3 (W7 m ρ c) (Proc.devRef .tc main_v62) = _
  simp only [hostOps3]
  after_results
  rw [W7_arg5]
  exact row64 _

/-- Region 3's output array, the program's result, holds what its write-backs leave. -/
theorem W9_v63 (c : Dev nD) : W9 m ρ c (Proc.devRef .tc main_v63) = (dat3 (V8 m ρ) c).arrAt 2 cfg3.N := W9_arr m ρ c 2

end Cert.KernelIdeal.Chain

end
-- ==== Proof.Region0.lean ====
/-
  Region 0: the first product, computed in ten row blocks.
  Point `t` of the grid reads rows `10000 t … 10000 t + 9999` of `x` and all of `W1`, and writes the same rows of the
  result: each entry is the sum over `k` of `x[r, k] · W1[k, j]` (the narrowing of the operands to a shorter float
  format is the identity over the extended reals, and the accumulator starts at zero). The ten blocks tile the
  100000 rows, so the array the region leaves is the whole product `x · W1`.
-/
import proofs.«114009_j82566451298883_1_alg».proof.Proof.Gen.KernelIdeal.Frame
import proofs.«114009_j82566451298883_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen
open Idealize.ShloMosaic.ValueIdx

variable (V : (c : Dev nD) → (b : Ref sig .tc) → Buf (Elt Ideal) ((c : Thread nD τ).loc b))

/-! ## The block's product read at an entry -/

/-- In the block's product the left operand's row is the entry's row. -/
theorem blk_lhs_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- Its column is the summation index. -/
theorem blk_lhs_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- The right operand's row is the summation index. -/
theorem blk_rhs_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- Its column is the entry's column. -/
theorem blk_rhs_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- Entry `(p, j)` of what a point stores: the sum over `k` of `xb[p, k] · w[k, j]`. The narrowing of both operands
    is the identity over the extended reals and the accumulator is zero. -/
theorem block_prod_apply (xb : Vec Ideal S10000x64 .f32) (w : Vec Ideal S64x128 .f32) (p : Fin 10000) (j : Fin 128) :
    k0_pay1 (F := Ideal) xb w (ix2 p j) = ∑ k : Fin 64, xb (ix2 p k) * w (ix2 k j) := by
  show FloatOps.matmul dot_S10000x64_S64x128_S10000x128_1_0_0_1_n_n none (truncf .bf16 (xb : FVec Ideal S10000x64 .f32) bitsLt_bf16_f32) (truncf .bf16 (w : FVec Ideal S64x128 .f32) bitsLt_bf16_f32) (constant (F := Ideal) S10000x128 .f32 0x00000000#32) (ix2 p j) = _
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p j) ((contrEquiv1 dot_S10000x64_S64x128_S10000x128_1_0_0_1_n_n 64 rfl rfl).symm k) = ix2 p k := funext fun a => Fin.ext (by
    match a with
    | ⟨0, _⟩ => exact blk_lhs_0 _ _
    | ⟨1, _⟩ => exact (blk_lhs_1 _ _).trans hk)
  have er : dot_S10000x64_S64x128_S10000x128_1_0_0_1_n_n.rhsIdx (ix2 p j) ((contrEquiv1 dot_S10000x64_S64x128_S10000x128_1_0_0_1_n_n 64 rfl rfl).symm k) = ix2 k j := funext fun a => Fin.ext (by
    match a with
    | ⟨0, _⟩ => exact (blk_rhs_0 _ _).trans hk
    | ⟨1, _⟩ => exact blk_rhs_1 _ _)
  rw [el, er]
  rfl

/-! ## The whole product read at an entry -/

/-- In the whole product the left operand's row is the entry's row. -/
theorem whole_lhs_0 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x128_S100000x128_1_0_0_1_n_n.lhsBatch by decide), dif_pos (show (0 : Fin Cert.ReferenceIdeal.S100000x64.rank) ∈ Cert.ReferenceIdeal.dot_S100000x64_S64x128_S100000x128_1_0_0_1_n_n.lhsNonContracting by decide)]
  rfl
/-- Its column is the summation index. -/
theorem whole_lhs_1 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 1).val = (q ⟨0, by decide⟩).val :=
  Cert.ReferenceIdeal.dot_S100000x64_S64x128_S100000x128_1_0_0_1_n_n.lhsIdx_val_of_single rfl i q
/-- The right operand's row is the summation index. -/
theorem whole_rhs_0 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 0).val = (q ⟨0, by decide⟩).val :=
  Cert.ReferenceIdeal.dot_S100000x64_S64x128_S100000x128_1_0_0_1_n_n.rhsIdx_val_of_single rfl i q
/-- Its column is the entry's column. -/
theorem whole_rhs_1 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 1).val = (i 1).val := by
  unfold DotDims.rhsIdx
  rw [dif_neg (show ¬(1 : Fin Cert.ReferenceIdeal.S64x128.rank) ∈ Cert.ReferenceIdeal.dot_S100000x64_S64x128_S100000x128_1_0_0_1_n_n.rhsBatch by decide), dif_pos (show (1 : Fin Cert.ReferenceIdeal.S64x128.rank) ∈ Cert.ReferenceIdeal.dot_S100000x64_S64x128_S100000x128_1_0_0_1_n_n.rhsNonContracting by decide)]
  rfl

/-- Entry `(r, j)` of the whole product: the sum over `k` of `x[r, k] · w[k, j]`. -/
theorem whole_prod_apply (x : (⟨Cert.ReferenceIdeal.S100000x64, .f32⟩ : BufTy).Contents (Elt Ideal)) (w : (⟨Cert.ReferenceIdeal.S64x128, .f32⟩ : BufTy).Contents (Elt Ideal))
    (r : Fin 100000) (j : Fin 128) :
    Cert.Spec.product1 (F := Ideal) x w (ix2 r j) = ∑ k : Fin 64, x (ix2 r k) * w (ix2 k j) := by
  simp only [Cert.Spec.product1, Host.dotGeneral]
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  have hk := contrEquiv1_symm_val Cert.ReferenceIdeal.dot_S100000x64_S64x128_S100000x128_1_0_0_1_n_n 64 rfl rfl k
  have el : Cert.ReferenceIdeal.dot_S100000x64_S64x128_S100000x128_1_0_0_1_n_n.lhsIdx (ix2 r j) ((contrEquiv1 Cert.ReferenceIdeal.dot_S100000x64_S64x128_S100000x128_1_0_0_1_n_n 64 rfl rfl).symm k) = ix2 r k := funext fun a => Fin.ext (by
    match a with
    | ⟨0, _⟩ => exact whole_lhs_0 _ _
    | ⟨1, _⟩ => exact (whole_lhs_1 _ _).trans hk)
  have er : Cert.ReferenceIdeal.dot_S100000x64_S64x128_S100000x128_1_0_0_1_n_n.rhsIdx (ix2 r j) ((contrEquiv1 Cert.ReferenceIdeal.dot_S100000x64_S64x128_S100000x128_1_0_0_1_n_n 64 rfl rfl).symm k) = ix2 k j := funext fun a => Fin.ext (by
    match a with
    | ⟨0, _⟩ => exact (whole_rhs_0 _ _).trans hk
    | ⟨1, _⟩ => exact whole_rhs_1 _ _)
  rw [el, er]

/-! ## One point's block against the whole product -/

/-- If `xb` is rows `10000 n …` of `x` and `wb` is `w`, then what the point stores at a block entry is the whole
    product at the array entry `10000 n` rows further down. -/
theorem point_eq (x : (⟨Cert.ReferenceIdeal.S100000x64, .f32⟩ : BufTy).Contents (Elt Ideal)) (w : (⟨Cert.ReferenceIdeal.S64x128, .f32⟩ : BufTy).Contents (Elt Ideal))
    (xb : Vec Ideal S10000x64 .f32) (wb : Vec Ideal S64x128 .f32) (n : Nat)
    (hx : ∀ (p : Fin 10000) (k : Fin 64) (r : Fin 100000), r.val = n * 10000 + p.val → xb (ix2 p k) = x (ix2 r k))
    (hw : ∀ (k : Fin 64) (j : Fin 128), wb (ix2 k j) = w (ix2 k j))
    (yb : S10000x128.Idx) (i : S100000x128.Idx) (h0 : (i 0).val = n * 10000 + (yb 0).val) (h1 : (i 1).val = (yb 1).val) :
    k0_pay1 (F := Ideal) xb wb yb = Cert.Spec.product1 (F := Ideal) x w i := by
  obtain ⟨p, j, rfl⟩ : ∃ (p : Fin 10000) (j : Fin 128), yb = ix2 p j := ⟨yb 0, yb 1, eq_ix2 yb⟩
  obtain ⟨r, j', rfl⟩ : ∃ (r : Fin 100000) (j' : Fin 128), i = ix2 r j' := ⟨i 0, i 1, eq_ix2 i⟩
  have hj : j' = j := Fin.ext h1
  subst hj
  rw [block_prod_apply, whole_prod_apply]
  refine Finset.sum_congr rfl fun k _ => ?_
  rw [hx p k r h0, hw k j']

/-! ## From the ten blocks to the array -/

theorem zero_offsets : (![0, 0] : Fin 2 → Nat) = fun _ => 0 := funext fun a => by fin_cases a <;> rfl

/-- The printed index maps, decided over the grid: point `t` reads block row `t` of `x`, the one block of `w`, and
    writes block row `t` of the result. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 (F := Ideal) V c).flushed 2 t
      = ((cfg0.win 2).blk t).view.read (Elt Ideal) (Cert.Spec.product1 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x128) zero_offsets]
  obtain ⟨e0, e1, e2, e3, e4, e5⟩ := index_facts t
  funext y
  show k0_pay1 (F := Ideal) (iblk0 V c 0 t) (iblk0 V c 1 t) ((cfg0.win 2).xinj (grid0.coords t) y)
    = Cert.Spec.product1 (F := Ideal) (V c main_arg0) (V c main_arg2) (((cfg0.win 2).blk t).view.emb y)
  refine point_eq (V c main_arg0) (V c main_arg2) _ _ t.val ?_ ?_ _ _ ?_ ?_
  · intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 10000 + 1 * p.val = r.val; omega
    | ⟨1, _⟩ => show win0_0.index t (1 : Fin 2) * 64 + 1 * k.val = k.val; omega
  · intro k j
    show V c main_arg2 (((cfg0.win 1).blk t).view.emb (ix2 k j)) = V c main_arg2 (ix2 k j)
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * j.val = j.val; omega
  · show win0_2.index t (0 : Fin 2) * 10000 + 1 * (y 0).val = t.val * 10000 + (y 0).val; omega
  · show win0_2.index t (1 : Fin 2) * 128 + 1 * (y 1).val = (y 1).val; omega

/-- An entry of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every entry of the array is in some point's block: row `r` is in block `r / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by show _ < grid0.N; rw [N_0]; omega
  refine ⟨⟨(i 0).val / 10000, hN⟩, flush0_2 _, ?_⟩
  obtain ⟨e0, e1, e2, e3, e4, e5⟩ := index_facts ⟨(i 0).val / 10000, hN⟩
  rw [mem_blk]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; rw [e4]; show (i 0).val / 10000 * 10000 ≤ (i 0).val ∧ (i 0).val < (i 0).val / 10000 * 10000 + 10000; omega
  | ⟨1, _⟩ => show win0_2.index ⟨(i 0).val / 10000, hN⟩ (1 : Fin 2) * 128 ≤ (i 1).val ∧ (i 1).val < win0_2.index ⟨(i 0).val / 10000, hN⟩ (1 : Fin 2) * 128 + 128; omega

/-- What region 0 leaves in its output array: the product of the two arrays it finds at `main_arg0` and `main_arg2`. -/
theorem final (c : Dev nD) :
    (dat0 (F := Ideal) V c).arrAt 2 cfg0.N = Cert.Spec.product1 (F := Ideal) (V c main_arg0) (V c main_arg2) := by
  exact (dat0 (F := Ideal) V c).arrAt_eq_of_cover 2 _ (fun t _ => flushed_eq V c t) covered

end Cert.KernelIdeal.Region0

end
-- ==== Proof.Region1.lean ====
/-
  Region 1: bias and positive part over 128 features, in ten row blocks.
  Point `t` reads rows `10000 t … 10000 t + 9999` of the aggregated features and the one bias row, and writes
  `max(a[r, j] + b[0, j], 0)` to the same rows; the blocks tile the rows, so the region leaves that function of the
  whole arrays.
-/
import proofs.«114009_j82566451298883_1_alg».proof.Proof.Gen.KernelIdeal.Frame
import proofs.«114009_j82566451298883_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen
open Idealize.ShloMosaic.ValueIdx

variable {F : FTy → Type} [FloatOps F]
variable (V : (c : Dev nD) → (b : Ref sig .tc) → Buf (Elt F) ((c : Thread nD τ).loc b))

/-- The whole-block rectangle starts at the origin. -/
theorem zeroOff : (![0, 0] : Fin 2 → Nat) = fun _ => 0 := funext fun a => by
  match a with | ⟨0, _⟩ => rfl | ⟨1, _⟩ => rfl

/-- The stored block at row `p`, column `j`: the larger of zero and the row block's entry plus the bias row's entry in
    that column (the second operand of the maximum is the splat of the zero word, the same scalar at every index). -/
theorem pay_apply (ab : Vec F S10000x128 .f32) (bb : Vec F S1x128 .f32) (p : Fin 10000) (j : Fin 128) :
    k1_pay1 ab bb (ix2 p j)
      = FloatOps.maximumf (FloatOps.addf (ab (ix2 p j)) (bb (ix2 (0 : Fin 1) j))) (Scalar.ofBits (F := F) .f32 0x00000000#32) := by
  unfold k1_pay1
  show FloatOps.maximumf (FloatOps.addf (shapeCast S10000x128 ab shapeCasts_S10000x128_S10000x128 (ix2 p j))
      (broadcastTo S10000x128 (shapeCast S1x128 bb shapeCasts_S1x128_S1x128) broadcasts_S1x128_S10000x128 (ix2 p j)))
      (Scalar.ofBits (F := F) .f32 0x00000000#32) = _
  rw [shapeCast_self, shapeCast_self, broadcastTo_1b_ab_apply]

/-- The specification at row `r`, column `j`: the same expression of the array's entry and the bias row's entry (the
    zero constant broadcast to the array's shape is that one scalar at every index). -/
theorem biasRelu_apply (a : (⟨S100000x128, .f32⟩ : BufTy).Contents (Elt F)) (b : (⟨S1x128, .f32⟩ : BufTy).Contents (Elt F))
    (r : Fin 100000) (j : Fin 128) :
    Cert.Spec.biasRelu (F := F) a b (ix2 r j)
      = FloatOps.maximumf (FloatOps.addf (a (ix2 r j)) (b (ix2 (0 : Fin 1) j))) (Scalar.ofBits (F := F) .f32 0x00000000#32) := by
  unfold Cert.Spec.biasRelu
  show FloatOps.maximumf (FloatOps.addf (a (ix2 r j)) (broadcastInDim _ ![0, 1] _ b (ix2 r j)))
      (Scalar.ofBits (F := F) .f32 0x00000000#32) = _
  rw [broadcastInDim_oneRow_apply]

/-- One element of a stored block against the specification: when the block's entry `y` is the array's entry `i`, in the
    same column, and the bias block is the bias row, the stored value at `y` is the specification at `i`. -/
theorem elem_eq (a : (⟨S100000x128, .f32⟩ : BufTy).Contents (Elt F)) (b : (⟨S1x128, .f32⟩ : BufTy).Contents (Elt F))
    (ab : Vec F S10000x128 .f32) (bb : Vec F S1x128 .f32) (y : S10000x128.Idx) (i : S100000x128.Idx)
    (hcol : (i 1).val = (y 1).val) (ha : ab y = a i)
    (hb : ∀ j : Fin 128, bb (ix2 (0 : Fin 1) j) = b (ix2 (0 : Fin 1) j)) :
    k1_pay1 ab bb y = Cert.Spec.biasRelu (F := F) a b i := by
  obtain ⟨p, j, rfl⟩ : ∃ (p : Fin 10000) (j : Fin 128), y = ix2 p j := ⟨y 0, y 1, eq_ix2 y⟩
  obtain ⟨r, j', rfl⟩ : ∃ (r : Fin 100000) (j' : Fin 128), i = ix2 r j' := ⟨i 0, i 1, eq_ix2 i⟩
  have hj : j' = j := Fin.ext hcol
  subst hj
  rw [pay_apply, biasRelu_apply, ha, hb]

/-- The printed index maps over the grid: the row windows sit at block `t` of the rows, the bias window at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the specification of the two arrays the region finds. -/
theorem flushed_eq (c : Dev nD) (t : Fin cfg1.N) :
    (dat1 V c).flushed 2 t = ((cfg1.win 2).blk t).view.read (Elt F) (Cert.Spec.biasRelu (F := F) (V c main_v45) (V c main_v46)) := by
  show (cfg1.win 2).cut (grid1.coords t) ((dat1 V c).after 2 t) = _
  rw [after1_2]
  unfold out1_2
  rw [View.canon_unit_zero zeroOff]
  simp only [View.ld_unit_zero (S := S10000x128) zeroOff, View.ld_unit_zero (S := S1x128) zeroOff]
  obtain ⟨e0, e1, e2, e3, e4, e5⟩ := idx_facts t
  funext y
  show k1_pay1 (iblk1 V c 0 t) (iblk1 V c 1 t) ((win1 2).xinj (grid1.coords t) y)
    = Cert.Spec.biasRelu (F := F) (V c main_v45) (V c main_v46) (((cfg1.win 2).blk t).view.emb y)
  refine elem_eq (V c main_v45) (V c main_v46) _ _ _ _ ?_ ?_ ?_
  · show win1_2.index t (1 : Fin 2) * 128 + 1 * (y 1).val = (y 1).val
    omega
  · show V c main_v45 (((cfg1.win 0).blk t).view.emb ((win1 2).xinj (grid1.coords t) y))
      = V c main_v45 (((cfg1.win 2).blk t).view.emb y)
    refine congrArg (V c main_v45) (funext fun a => Fin.ext ?_)
    match a with
    | ⟨0, _⟩ =>
      show win1_0.index t (0 : Fin 2) * 10000 + 1 * (y 0).val = win1_2.index t (0 : Fin 2) * 10000 + 1 * (y 0).val
      omega
    | ⟨1, _⟩ =>
      show win1_0.index t (1 : Fin 2) * 128 + 1 * (y 1).val = win1_2.index t (1 : Fin 2) * 128 + 1 * (y 1).val
      omega
  · intro j
    show V c main_v46 (((cfg1.win 1).blk t).view.emb (ix2 (0 : Fin 1) j)) = V c main_v46 (ix2 (0 : Fin 1) j)
    refine congrArg (V c main_v46) (funext fun a => Fin.ext ?_)
    match a with
    | ⟨0, _⟩ =>
      show win1_1.index t (0 : Fin 2) * 1 + 1 * 0 = 0
      omega
    | ⟨1, _⟩ =>
      show win1_1.index t (1 : Fin 2) * 128 + 1 * j.val = j.val
      omega

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v47).slice (win1_2.rect t)).set ↔ _
  rw [View.set_slice_whole, Rect.mem_set_unit]
  exact Iff.rfl

/-- The ten blocks tile the rows: row `r` lies in the block of point `r / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 10000 < cfg1.N := by
    show (i 0).val / 10000 < grid1.N
    rw [N_1]; omega
  obtain ⟨e0, e1, e2, e3, e4, e5⟩ := idx_facts ⟨(i 0).val / 10000, hN⟩
  have e4' : win1_2.index ⟨(i 0).val / 10000, hN⟩ (0 : Fin 2) = (i 0).val / 10000 := e4
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    omega
  | ⟨1, _⟩ =>
    show win1_2.index ⟨(i 0).val / 10000, hN⟩ (1 : Fin 2) * 128 ≤ (i 1).val
      ∧ (i 1).val < win1_2.index ⟨(i 0).val / 10000, hN⟩ (1 : Fin 2) * 128 + 128
    omega

/-- What region 1 leaves in its output array, from the arrays it finds at `main_v45` and `main_v46`. -/
theorem final (c : Dev nD) :
    (dat1 (F := F) V c).arrAt 2 cfg1.N = Cert.Spec.biasRelu (F := F) (V c main_v45) (V c main_v46) := by
  exact (dat1 V c).arrAt_eq_of_cover 2 (Cert.Spec.biasRelu (F := F) (V c main_v45) (V c main_v46))
    (fun t _ => flushed_eq V c t) cover

end Cert.KernelIdeal.Region1

end
-- ==== Proof.Region3.lean ====
/-
  Region 3: bias over 64 features, in ten row blocks.
  Point `t` reads rows `10000 t … 10000 t + 9999` of the aggregated features and the one bias row, and writes
  `a[r, j] + b[0, j]` to the same rows; the blocks tile the rows, so the region leaves that function of the whole arrays.
-/
import proofs.«114009_j82566451298883_1_alg».proof.Proof.Gen.KernelIdeal.Frame
import proofs.«114009_j82566451298883_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Region3

open Idealize.ShloMosaic Idealize.ShloMosaic.TcCoe Idealize.SL.Sem
open Idealize.ShloMosaic.Pipeline (Dat Cfg Window)
open Cert.KernelIdeal Cert.KernelIdeal.Gen
open Idealize.ShloMosaic.ValueIdx

variable {F : FTy → Type} [FloatOps F]
variable (V : (c : Dev nD) → (b : Ref sig .tc) → Buf (Elt F) ((c : Thread nD τ).loc b))

/-- The whole-block rectangle starts at the origin. -/
theorem zeroOff : (![0, 0] : Fin 2 → Nat) = fun _ => 0 := funext fun a => by
  match a with | ⟨0, _⟩ => rfl | ⟨1, _⟩ => rfl

/-- The stored block at row `p`, column `j`: the row block's entry plus the bias row's entry in that column. -/
theorem pay_apply (ab : Vec F S10000x64 .f32) (bb : Vec F S1x64 .f32) (p : Fin 10000) (j : Fin 64) :
    k3_pay1 ab bb (ix2 p j) = FloatOps.addf (ab (ix2 p j)) (bb (ix2 (0 : Fin 1) j)) := by
  unfold k3_pay1
  show FloatOps.addf (shapeCast S10000x64 ab shapeCasts_S10000x64_S10000x64 (ix2 p j))
      (broadcastTo S10000x64 (shapeCast S1x64 bb shapeCasts_S1x64_S1x64) broadcasts_S1x64_S10000x64 (ix2 p j)) = _
  rw [shapeCast_self, shapeCast_self, broadcastTo_1b_ab_apply]

/-- The specification at row `r`, column `j`: the array's entry plus the bias row's entry in that column. -/
theorem bias_apply (a : (⟨S100000x64, .f32⟩ : BufTy).Contents (Elt F)) (b : (⟨S1x64, .f32⟩ : BufTy).Contents (Elt F))
    (r : Fin 100000) (j : Fin 64) :
    Cert.Spec.bias (F := F) a b (ix2 r j) = FloatOps.addf (a (ix2 r j)) (b (ix2 (0 : Fin 1) j)) := by
  unfold Cert.Spec.bias
  show FloatOps.addf (a (ix2 r j)) (broadcastInDim _ ![0, 1] _ b (ix2 r j)) = _
  rw [broadcastInDim_oneRow_apply]

/-- One element of a stored block against the specification: when the block's entry `y` is the array's entry `i`, in the
    same column, and the bias block is the bias row, the stored value at `y` is the specification at `i`. -/
theorem elem_eq (a : (⟨S100000x64, .f32⟩ : BufTy).Contents (Elt F)) (b : (⟨S1x64, .f32⟩ : BufTy).Contents (Elt F))
    (ab : Vec F S10000x64 .f32) (bb : Vec F S1x64 .f32) (y : S10000x64.Idx) (i : S100000x64.Idx)
    (hcol : (i 1).val = (y 1).val) (ha : ab y = a i)
    (hb : ∀ j : Fin 64, bb (ix2 (0 : Fin 1) j) = b (ix2 (0 : Fin 1) j)) :
    k3_pay1 ab bb y = Cert.Spec.bias (F := F) a b i := by
  obtain ⟨p, j, rfl⟩ : ∃ (p : Fin 10000) (j : Fin 64), y = ix2 p j := ⟨y 0, y 1, eq_ix2 y⟩
  obtain ⟨r, j', rfl⟩ : ∃ (r : Fin 100000) (j' : Fin 64), i = ix2 r j' := ⟨i 0, i 1, eq_ix2 i⟩
  have hj : j' = j := Fin.ext hcol
  subst hj
  rw [pay_apply, bias_apply, ha, hb]

/-- The printed index maps over the grid: the row windows sit at block `t` of the rows, the bias window at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the specification of the two arrays the region finds. -/
theorem flushed_eq (c : Dev nD) (t : Fin cfg3.N) :
    (dat3 V c).flushed 2 t = ((cfg3.win 2).blk t).view.read (Elt F) (Cert.Spec.bias (F := F) (V c main_v61) (V c main_v62)) := by
  show (cfg3.win 2).cut (grid3.coords t) ((dat3 V c).after 2 t) = _
  rw [after3_2]
  unfold out3_2
  rw [View.canon_unit_zero zeroOff]
  simp only [View.ld_unit_zero (S := S10000x64) zeroOff, View.ld_unit_zero (S := S1x64) zeroOff]
  obtain ⟨e0, e1, e2, e3, e4, e5⟩ := idx_facts t
  funext y
  show k3_pay1 (iblk3 V c 0 t) (iblk3 V c 1 t) ((win3 2).xinj (grid3.coords t) y)
    = Cert.Spec.bias (F := F) (V c main_v61) (V c main_v62) (((cfg3.win 2).blk t).view.emb y)
  refine elem_eq (V c main_v61) (V c main_v62) _ _ _ _ ?_ ?_ ?_
  · show win3_2.index t (1 : Fin 2) * 64 + 1 * (y 1).val = (y 1).val
    omega
  · show V c main_v61 (((cfg3.win 0).blk t).view.emb ((win3 2).xinj (grid3.coords t) y))
      = V c main_v61 (((cfg3.win 2).blk t).view.emb y)
    refine congrArg (V c main_v61) (funext fun a => Fin.ext ?_)
    match a with
    | ⟨0, _⟩ =>
      show win3_0.index t (0 : Fin 2) * 10000 + 1 * (y 0).val = win3_2.index t (0 : Fin 2) * 10000 + 1 * (y 0).val
      omega
    | ⟨1, _⟩ =>
      show win3_0.index t (1 : Fin 2) * 64 + 1 * (y 1).val = win3_2.index t (1 : Fin 2) * 64 + 1 * (y 1).val
      omega
  · intro j
    show V c main_v62 (((cfg3.win 1).blk t).view.emb (ix2 (0 : Fin 1) j)) = V c main_v62 (ix2 (0 : Fin 1) j)
    refine congrArg (V c main_v62) (funext fun a => Fin.ext ?_)
    match a with
    | ⟨0, _⟩ =>
      show win3_1.index t (0 : Fin 2) * 1 + 1 * 0 = 0
      omega
    | ⟨1, _⟩ =>
      show win3_1.index t (1 : Fin 2) * 64 + 1 * j.val = j.val
      omega

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v63).slice (win3_2.rect t)).set ↔ _
  rw [View.set_slice_whole, Rect.mem_set_unit]
  exact Iff.rfl

/-- The ten blocks tile the rows: row `r` lies in the block of point `r / 10000`. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 10000 < cfg3.N := by
    show (i 0).val / 10000 < grid3.N
    rw [N_3]; omega
  obtain ⟨e0, e1, e2, e3, e4, e5⟩ := idx_facts ⟨(i 0).val / 10000, hN⟩
  have e4' : win3_2.index ⟨(i 0).val / 10000, hN⟩ (0 : Fin 2) = (i 0).val / 10000 := e4
  refine ⟨⟨(i 0).val / 10000, hN⟩, flush3_2 _, ?_⟩
  rw [mem_blk]
  intro a
  match a with
  | ⟨0, _⟩ =>
    show win3_2.index ⟨(i 0).val / 10000, hN⟩ (0 : Fin 2) * 10000 ≤ (i 0).val
      ∧ (i 0).val < win3_2.index ⟨(i 0).val / 10000, hN⟩ (0 : Fin 2) * 10000 + 10000
    omega
  | ⟨1, _⟩ =>
    show win3_2.index ⟨(i 0).val / 10000, hN⟩ (1 : Fin 2) * 64 ≤ (i 1).val
      ∧ (i 1).val < win3_2.index ⟨(i 0).val / 10000, hN⟩ (1 : Fin 2) * 64 + 64
    omega

/-- What region 3 leaves in its output array, from the arrays it finds at `main_v61` and `main_v62`. -/
theorem final (c : Dev nD) :
    (dat3 (F := F) V c).arrAt 2 cfg3.N = Cert.Spec.bias (F := F) (V c main_v61) (V c main_v62) := by
  exact (dat3 V c).arrAt_eq_of_cover 2 (Cert.Spec.bias (F := F) (V c main_v61) (V c main_v62))
    (fun t _ => flushed_eq V c t) cover

end Cert.KernelIdeal.Region3

end
-- ==== Proof.ChainValue.lean ====
/-
  The kernel's program computes the specification.

  Region by region, from the launch memory: region 0 leaves the product `x · W1` of the two arguments it reads; the
  stretch after it aggregates that product over the extended edges and lays the first bias out as a row; region 1 adds
  the bias and takes the positive part, which is the hidden layer; region 2 leaves the hidden layer's product with `W2`;
  the next stretch aggregates it and lays out the second bias; region 3 adds that bias. Each step rewrites the region's
  output array by the region's closed form, and the region's input arrays by what the host side left there.
-/
import proofs.«114009_j82566451298883_1_alg».proof.Proof.ChainHost
import proofs.«114009_j82566451298883_1_alg».proof.Proof.Region0
import proofs.«114009_j82566451298883_1_alg».proof.Proof.Region1
import proofs.«114009_j82566451298883_1_alg».proof.Proof.Region2
import proofs.«114009_j82566451298883_1_alg».proof.Proof.Region3

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After region 0: the first product of the arguments. -/
theorem W4_product (c : Dev nD) : W4 m ρ c (Proc.devRef .tc main_v32) = Cert.Spec.product1 (m ((c : Thread nD τ).loc main_arg0)) (m ((c : Thread nD τ).loc main_arg2)) := by
  rw [W4_v32, Cert.KernelIdeal.Region0.final (V3 m ρ) c]
  show Cert.Spec.product1 (W3 m ρ c (Proc.devRef .tc main_arg0)) (W3 m ρ c (Proc.devRef .tc main_arg2)) = _
  rw [W3_arg0, W3_arg2]

/-- After region 1: the hidden layer. -/
theorem W6_hidden (c : Dev nD) : W6 m ρ c (Proc.devRef .tc main_v47)
    = Cert.Spec.hidden (m ((c : Thread nD τ).loc main_arg0)) (m ((c : Thread nD τ).loc main_arg1)) (m ((c : Thread nD τ).loc main_arg2)) (m ((c : Thread nD τ).loc main_arg3)) := by
  rw [W6_v47, Cert.KernelIdeal.Region1.final (V5 m ρ) c]
  show Cert.Spec.biasRelu (W5 m ρ c (Proc.devRef .tc main_v45)) (W5 m ρ c (Proc.devRef .tc main_v46)) = _
  rw [W5_v45, W5_v46, W4_product]
  rfl

/-- After region 2: the hidden layer's product with the second weights. -/
theorem W7_product (c : Dev nD) : W7 m ρ c (Proc.devRef .tc main_v48)
    = Cert.Spec.product2 (Cert.Spec.hidden (m ((c : Thread nD τ).loc main_arg0)) (m ((c : Thread nD τ).loc main_arg1)) (m ((c : Thread nD τ).loc main_arg2)) (m ((c : Thread nD τ).loc main_arg3))) (m ((c : Thread nD τ).loc main_arg4)) := by
  rw [W7_v48, Cert.KernelIdeal.Region2.final (V6 m ρ) c]
  show Cert.Spec.product2 (W6 m ρ c (Proc.devRef .tc main_v47)) (W6 m ρ c (Proc.devRef .tc main_arg4)) = _
  rw [W6_hidden, W6_arg4]

/-- After region 3: the program's result array holds the network of the six arguments. -/
theorem value (c : Dev nD) : W9 m ρ c (Proc.devRef .tc main_v63)
    = Cert.Spec.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W9_v63, Cert.KernelIdeal.Region3.final (V8 m ρ) c]
  show Cert.Spec.bias (W8 m ρ c (Proc.devRef .tc main_v61)) (W8 m ρ c (Proc.devRef .tc main_v62)) = _
  rw [W8_v61, W8_v62, W7_product]
  rfl

end Cert.KernelIdeal.Chain

end
-- ==== Proof.lean ====
/-
  A two-layer graph convolution, its dense products and bias steps as blockwise kernels, against the plain array program.

  Both programs compute `A (relu (A (x · W1) + b1) · W2) + b2`, where `A h` gathers `h`'s row at each edge's source,
  scales it by the edge's coefficient (the product of its ends' inverse square-root degrees, self loops added) and adds it
  into the row of the edge's destination. The kernel's program computes each product ten thousand rows at a time from
  operands narrowed to a shorter float format — the identity over the extended reals — into a zero accumulator, and
  adds each bias (taking the positive part after the first) in row blocks; the gathers, the scalings and the scatter
  additions are the same host operations in both programs, applied to equal values, so they are never opened. The law
  that joins the two sides is only that a matrix product's rows can be computed block by block: no distributivity,
  no cancellation, so finiteness of the inputs is not used.

  `Cert.Spec.network` is that function of the six argument arrays. The kernel program's run ends with its result array at
  the network of its arguments (`Cert.KernelIdeal.Chain.value`, over the four regions' closed forms), the reference's run
  at the same function of its own arguments (`Cert.ReferenceIdeal.RefValue.result_eq`), and the arguments agree. The
  idealization rewrote nothing, so `preserves` is trivial; the three frames are the runs with the result dropped.
-/
import proofs.«114009_j82566451298883_1_alg».proof.Defs
import proofs.«114009_j82566451298883_1_alg».proof.Proof.Gen.Kernel
import proofs.«114009_j82566451298883_1_alg».proof.Proof.Gen.Kernel.Skeleton
import proofs.«114009_j82566451298883_1_alg».proof.Proof.Gen.Kernel.Launch
import proofs.«114009_j82566451298883_1_alg».proof.Proof.Gen.Kernel.Points
import proofs.«114009_j82566451298883_1_alg».proof.Proof.Gen.Kernel.Frame
import proofs.«114009_j82566451298883_1_alg».proof.Proof.Gen.KernelIdeal
import proofs.«114009_j82566451298883_1_alg».proof.Proof.Gen.KernelIdeal.Skeleton
import proofs.«114009_j82566451298883_1_alg».proof.Proof.Gen.KernelIdeal.Launch
import proofs.«114009_j82566451298883_1_alg».proof.Proof.Gen.KernelIdeal.Points
import proofs.«114009_j82566451298883_1_alg».proof.Proof.Gen.KernelIdeal.Frame
import proofs.«114009_j82566451298883_1_alg».proof.Proof.Gen.ReferenceIdeal
import proofs.«114009_j82566451298883_1_alg».proof.Proof.Gen.Pre_finite_inputs
import proofs.«114009_j82566451298883_1_alg».proof.Proof.KernelRun
import proofs.«114009_j82566451298883_1_alg».proof.Proof.RefRun
import proofs.«114009_j82566451298883_1_alg».proof.Proof.RefValue
import proofs.«114009_j82566451298883_1_alg».proof.Proof.ChainValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the network of those arguments in their result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Chain.value m ρ c), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
